-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S4096x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibRowRowDot.lean ====
/-
  A matrix product that contracts axis 1 of BOTH operands, read at an index.

  For `a : [n, k]` and `w : [m, k]` the product `a · wᵀ : [n, m]` at `(p, q)` is row `p` of `a` against row `q`
  of `w`: `∑ κ < k, a (p, κ) · w (q, κ)` — the form a weight stored (out_features, in_features) is multiplied
  in, with no transpose materialised. The dimension numbers enter only through one rank fact, one size fact and
  four axis facts, so the lemma is generic in the three sizes and serves any record that proves them. On the
  extended reals a change of float format is the identity, so the operands' formats are free.
-/
import Idealize.ShloMosaic.PureOps.Ideal
import Idealize.ShloMosaic.PureOps.Ideal.Laws
import Idealize.ShloMosaic.Lib.ValueIdx

noncomputable section

open scoped BigOperators

namespace Idealize.ShloMosaic.RowRowDot

open Idealize.ShloMosaic Idealize.ShloMosaic.ValueIdx

/-- An `[n, m]` matrix of extended reals, by index. -/
abbrev Mat (n m : Nat) : Type := (⟨2, ![n, m]⟩ : Shape).Idx → EReal

/-- Row `p` of `a` against row `q` of `w`. -/
def rowRow {n k m : Nat} (a : Mat n k) (w : Mat m k) (p : Fin n) (q : Fin m) : EReal :=
  ∑ κ : Fin k, a (ix2 p κ) * w (ix2 q κ)

/-- Dimension numbers of an `[n × k] · [m × k]ᵀ` product: one contracted axis of extent `k`, the left operand
    read at (row, κ), the right at (column, κ). -/
structure Dims {n k m : Nat} (d : DotDims ⟨2, ![n, k]⟩ ⟨2, ![m, k]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx), (d.rhsIdx i q 0).val = (i 1).val
  r1 : ∀ (i : (⟨2, ![n, m]⟩ : Shape).Idx) (q : d.contr.Idx) (h : 0 < d.contr.rank), (d.rhsIdx i q 1).val = (q ⟨0, h⟩).val

section
variable {n k m : Nat} {d : DotDims ⟨2, ![n, k]⟩ ⟨2, ![m, k]⟩ ⟨2, ![n, m]⟩}

/-- The contracted sum, re-indexed by the contracted axis's one coordinate. -/
theorem Dims.sum_eq (hd : Dims d) (a : Mat n k) (w : Mat m k) (j : (⟨2, ![n, m]⟩ : Shape).Idx) :
    ∑ q : d.contr.Idx, a (d.lhsIdx j q) * w (d.rhsIdx j q) = rowRow a w (j 0) (j 1) := by
  have h0 : 0 < d.contr.rank := by rw [hd.rank]; exact Nat.one_pos
  unfold rowRow
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 (j 1) κ := funext fun a => Fin.ext (by
    match a with
    | ⟨0, _⟩ => exact hd.r0 _ _
    | ⟨1, _⟩ => exact (hd.r1 _ _ h0).trans hk)
  rw [el, er] <;> rfl

/-- The matrix unit's product into a zero accumulator, at an index: row against row. -/
theorem matmul_zero_at {φ₁ φ₂ : FTy} (hd : Dims d) (prec : Option ContractPrecision) (a : FVec Ideal ⟨2, ![n, k]⟩ φ₁)
    (w : FVec Ideal ⟨2, ![m, k]⟩ φ₂) (j : (⟨2, ![n, m]⟩ : Shape).Idx) :
    FloatOps.matmul d prec a w (constant ⟨2, ![n, m]⟩ .f32 0x00000000#32) j = rowRow (fun i => a i) (fun i => w i) (j 0) (j 1) := by
  rw [Ideal.matmul_constant_zero_apply]
  exact hd.sum_eq (fun i => a i) (fun i => w i) j

/-- The host's `dot_general` with the same dimension numbers, at an index: the same sum. -/
theorem dotGeneral_at {φ₁ φ₂ : FTy} (hd : Dims d) (prec : Option ContractPrecision) (a : FVec Ideal ⟨2, ![n, k]⟩ φ₁)
    (w : FVec Ideal ⟨2, ![m, k]⟩ φ₂) (j : (⟨2, ![n, m]⟩ : Shape).Idx) :
    Host.dotGeneral d prec a w j = rowRow (fun i => a i) (fun i => w i) (j 0) (j 1) := by
  simp only [Host.dotGeneral]
  rw [Ideal.dotGeneral_apply]
  exact hd.sum_eq (fun i => a i) (fun i => w i) j

end

end Idealize.ShloMosaic.RowRowDot

end
-- ==== Proof.Spec.lean ====
/-
  The specification both programs are compared against: a linear layer with the weight stored
  (out_features, in_features),

      out (t, o) = ∑ i < 4096, x (t, i) · w (o, i)        x : [8192, 4096],  w : [4096, 4096],

  row t of the input against row o of the weight, on the extended reals. No transpose is materialised
  on either side, and a sum on the extended reals does not depend on the order of its terms, so nothing
  here needs the inputs finite.

  Also: a tile of the output is the same formula on a band of rows of x and a band of rows of w. If
  xb is rows [r₀, r₀ + a) of x and wb is rows [s₀, s₀ + b) of w, then row p of xb against row q of wb is
  row r₀ + p of x against row s₀ + q of w: term by term the same sum.
-/
import proofs.«161275_j75849122447474_1_alg».proof.Proof.LibRowRowDot

noncomputable section

open scoped BigOperators

namespace Cert.Linear

open Idealize.ShloMosaic Idealize.ShloMosaic.ValueIdx Idealize.ShloMosaic.RowRowDot

/-- `out (t, o) = ∑ i, x (t, i) · w (o, i)`. -/
def linear (x : Mat 8192 4096) (w : Mat 4096 4096) : Mat 8192 4096 :=
  fun j => rowRow x w (j 0) (j 1)

theorem linear_apply (x : Mat 8192 4096) (w : Mat 4096 4096) (t : Fin 8192) (o : Fin 4096) :
    linear x w (ix2 t o) = rowRow x w t o := rfl

/-- Rows of a band against rows of a band: the whole matrices' rows at the bands' offsets. -/
theorem rowRow_band {n m a b k : Nat} (x : Mat n k) (w : Mat m k) (xb : Mat a k) (wb : Mat b k)
    (p : Fin a) (q : Fin b) (t : Fin n) (o : Fin m)
    (hx : ∀ κ : Fin k, xb (ix2 p κ) = x (ix2 t κ)) (hw : ∀ κ : Fin k, wb (ix2 q κ) = w (ix2 o κ)) :
    rowRow xb wb p q = rowRow x w t o := by
  unfold rowRow
  exact Finset.sum_congr rfl fun κ _ => by rw [hx κ, hw κ]

end Cert.Linear

end
-- ==== Proof.Tile.lean ====
/-
  One tile of the kernel. At a grid point the body loads a band xb : [1024, 4096] of the input and a band
  wb : [512, 4096] of the weight (both already narrowed to a 16-bit format, which on the extended reals changes
  nothing) and stores their product, contracting axis 1 of both and accumulated from zero. So entry (p, q) of the
  stored tile is row p of xb against row q of wb:

      tile (p, q) = ∑ κ < 4096, xb (p, κ) · wb (q, κ).

  The product's dimension numbers enter through four axis facts: the left operand is read at (row of the result, κ),
  the right operand at (column of the result, κ).
-/
import proofs.«161275_j75849122447474_1_alg».proof.Proof.Gen.KernelIdeal.Skeleton
import proofs.«161275_j75849122447474_1_alg».proof.Proof.Spec
import Idealize.ShloMosaic.Lib.Pipeline.Value

noncomputable section

open scoped BigOperators

namespace Cert.Linear.Tile

open Idealize.ShloMosaic Idealize.ShloMosaic.ValueIdx Idealize.ShloMosaic.RowRowDot
open Cert.KernelIdeal Cert.KernelIdeal.Gen

/-- The left operand's row is the result's row. -/
theorem lhs_tile_0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
/-- The left operand's column is the contracted coordinate. -/
theorem lhs_tile_1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
/-- The right operand's row is the result's column. -/
theorem rhs_tile_0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
/-- The right operand's column is the contracted coordinate. -/
theorem rhs_tile_1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The tile's product is a row-against-row product with one contracted axis of extent 4096. -/
theorem tile_dims : Dims dot_S1024x4096_S512x4096_S1024x512_1_1_0_0_n_n where
  rank := rfl
  size := fun _ => rfl
  l0 := lhs_tile_0
  l1 := fun i q _ => lhs_tile_1 i q
  r0 := rhs_tile_0
  r1 := fun i q _ => rhs_tile_1 i q

/-- Entry (p, q) of the stored tile: row p of the input band against row q of the weight band. -/
theorem tile_apply (xb : Vec Ideal S1024x4096 .bf16) (wb : Vec Ideal S512x4096 .bf16) (j : S1024x512.Idx) :
    k0_pay1 (F := Ideal) xb wb j = rowRow (fun i => xb i) (fun i => wb i) (j 0) (j 1) := by
  unfold k0_pay1
  rw [shapeCast_self, shapeCast_self]
  exact matmul_zero_at tile_dims none xb wb j

end Cert.Linear.Tile

end
-- ==== Proof.KernelArray.lean ====
/-
  The kernel's result as one array. Before the tiles run, the host narrows the input and the weight to a 16-bit
  format; on the extended reals that is the identity, so the arrays the tiles read are the arguments themselves.

  The grid is 8 × 8. Point t with coordinates (a, b) reads rows [1024 a, 1024 a + 1024) of the input (all 4096
  columns), rows [512 b, 512 b + 512) of the weight (all columns), and writes rows [1024 a, 1024 a + 1024) ×
  columns [512 b, 512 b + 512) of the result. By the tile formula, entry (p, q) of that tile is row p of the input
  band against row q of the weight band, which is row 1024 a + p of the input against row 512 b + q of the weight:
  the point writes its block of

      out (r, s) = ∑ i < 4096, x (r, i) · w (s, i).

  The 64 blocks tile the [8192, 4096] result (row r, column s lies in the block of a = r / 1024, b = s / 512), so
  after the run the result array is that function everywhere.
-/
import proofs.«161275_j75849122447474_1_alg».proof.Proof.Gen.KernelIdeal.Value
import proofs.«161275_j75849122447474_1_alg».proof.Proof.Tile
import Idealize.ShloMosaic.Lib.StableHlo.Run

noncomputable section

open scoped BigOperators

namespace Cert.Linear.KernelValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.RowRowDot

variable (m : (ℓ : Loc nD τ sig) → Buf (Elt Ideal) ℓ) (ρ : Dev nD → PrngReg)

/-- The input as launched, as a matrix of extended reals. -/
abbrev X (c : Dev nD) : Mat 8192 4096 := m ((c : Thread nD τ).loc main_arg0)
/-- The weight as launched, as a matrix of extended reals. -/
abbrev W (c : Dev nD) : Mat 4096 4096 := m ((c : Thread nD τ).loc main_arg1)

theorem origin : (![0, 0] : Fin 2 → Nat) = fun _ => 0 := funext fun a => by fin_cases a <;> rfl

/-- The narrowed input the tiles read is the input: a change of format is the identity. -/
theorem narrowed_input (c : Dev nD) : (V m c main_v0 : S8192x4096.Idx → EReal) = X m c := by
  dsimp only [Gen.V, Gen.hostOps0]; after_results; rfl
/-- The narrowed weight the tiles read is the weight. -/
theorem narrowed_weight (c : Dev nD) : (V m c main_v1 : S4096x4096.Idx → EReal) = W m c := by
  dsimp only [Gen.V, Gen.hostOps0]; after_results; rfl

/-- The index maps over the 64 points: the input's row block is the result's row block, the weight's row block is
    the result's column block, both operands start at column 0, and the result's block indices are below 8. -/
theorem idx_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 result blocks is some point's. -/
theorem idx_onto : ∀ (a b : Fin 8), ∃ t : Fin cfg0.N, win0_2.index t = ![a.val, b.val] :=
  (by decide +kernel : ∀ (a b : Fin 8), ∃ t : Fin grid0.N, win0_2.index t = ![a.val, b.val])

/-- An entry of the input band at point t is the input's entry, 1024 · (row block) rows down. -/
theorem input_band (c : Dev nD) (t : Fin cfg0.N) (y : S1024x4096.Idx) (i : S8192x4096.Idx)
    (h0 : (i 0).val = win0_2.index t (0 : Fin 2) * 1024 + (y 0).val) (h1 : (i 1).val = (y 1).val) :
    iblk m c 0 t y = X m c i := by
  obtain ⟨e0, e1, e2, e3, e4, e5⟩ := idx_facts t
  show V m c main_v0 (((cfg0.win 0).blk t).view.emb y) = _
  rw [narrowed_input]
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 4096 + 1 * (y 1).val = (i 1).val; omega

/-- An entry of the weight band at point t is the weight's entry, 512 · (column block) rows down. -/
theorem weight_band (c : Dev nD) (t : Fin cfg0.N) (y : S512x4096.Idx) (i : S4096x4096.Idx)
    (h0 : (i 0).val = win0_2.index t (1 : Fin 2) * 512 + (y 0).val) (h1 : (i 1).val = (y 1).val) :
    iblk m c 1 t y = W m c i := by
  obtain ⟨e0, e1, e2, e3, e4, e5⟩ := idx_facts t
  show V m c main_v1 (((cfg0.win 1).blk t).view.emb y) = _
  rw [narrowed_weight]
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 4096 + 1 * (y 1).val = (i 1).val; omega

/-- What point t writes back is its block of the linear layer of the arguments. -/
theorem flushed_eq (c : Dev nD) (t : Fin cfg0.N) :
    (dats m 0 c).flushed 2 t = ((cfg0.win 2).blk t).view.read (Elt Ideal) (Cert.Linear.linear (X m c) (W m c)) := by
  rw [Value.flushed2]
  unfold out0_2
  rw [View.canon_unit_zero origin]
  simp only [View.ld_unit_zero (S := S1024x4096) origin, View.ld_unit_zero (S := S512x4096) origin]
  funext j
  show k0_pay1 (F := Ideal) (iblk m c 0 t) (iblk m c 1 t) j
    = rowRow (X m c) (W m c) ((((cfg0.win 2).blk t).view.emb j) 0) ((((cfg0.win 2).blk t).view.emb j) 1)
  refine (Cert.Linear.Tile.tile_apply (iblk m c 0 t) (iblk m c 1 t) j).trans ?_
  refine Cert.Linear.rowRow_band (X m c) (W m c) _ _ (j 0) (j 1) _ _ (fun κ => ?_) (fun κ => ?_)
  · exact input_band m c t (ix2 (j 0) κ) _ (by show win0_2.index t (0 : Fin 2) * 1024 + 1 * (j 0).val = _; simp only [one_mul]) rfl
  · exact weight_band m c t (ix2 (j 1) κ) _ (by show win0_2.index t (1 : Fin 2) * 512 + 1 * (j 1).val = _; simp only [one_mul]) rfl

/-- An index of the result is in point t's block iff each coordinate is in the block's range on its axis. -/
theorem mem_blk (t : Fin cfg0.N) (i : S8192x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v2).slice (win0_2.rect t)).set ↔ _
  rw [View.set_slice_whole, Rect.mem_set_unit]
  exact Iff.rfl

/-- The blocks tile the result: (r, s) lies in the block of the point with coordinates (r / 1024, s / 512). -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The result array after the run is the linear layer of the arguments. -/
theorem final (c : Dev nD) : (dats m 0 c).arrAt 2 cfg0.N = Cert.Linear.linear (X m c) (W m c) :=
  (dats m 0 c).arrAt_eq_of_cover 2 (Cert.Linear.linear (X m c) (W m c)) (fun t _ => flushed_eq m c t) cover

/-- The kernel's run: it ends with the result at the linear layer of the arguments, the arguments unchanged. -/
theorem run : θ_run defs (onTc (τ := τ) (main (F := Ideal))) ⟨m, fun _ => 0, ρ⟩ fun r => ∀ c : Dev nD,
      r.2.mem ((c : Thread nD τ).loc main_v2) = Cert.Linear.linear (X m c) (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Linear.KernelValue

end
-- ==== Proof.Reference.lean ====
/-
  The reference computes the same linear layer in one step: a single product of the [8192, 4096] input with the
  [4096, 4096] weight, contracting axis 1 of both. Read at (t, o), that product is the sum over the 4096 contracted
  positions i of input (t, i) · weight (o, i): the left operand is read at (row of the result, i), the right operand
  at (column of the result, i). That is the specification's sum, term for term.
-/
import proofs.«161275_j75849122447474_1_alg».proof.Proof.Gen.ReferenceIdeal.Read
import proofs.«161275_j75849122447474_1_alg».proof.Proof.Spec

noncomputable section

open scoped BigOperators

namespace Cert.Linear.Reference

open Cert.ReferenceIdeal Idealize.ShloMosaic Idealize.ShloMosaic.ValueIdx Idealize.ShloMosaic.RowRowDot

/-- The left operand of the product is read at (result's row, contracted position). -/
theorem left_index (i : S8192x4096.Idx) (k : Fin 4096) : Read.lidx_main_v0 i k = ix2 (i 0) k :=
  funext fun a => Fin.ext (by match a with | ⟨0, _⟩ => rfl | ⟨1, _⟩ => rfl)

/-- The right operand of the product is read at (result's column, contracted position). -/
theorem right_index (i : S8192x4096.Idx) (k : Fin 4096) : Read.ridx_main_v0 i k = ix2 (i 1) k :=
  funext fun a => Fin.ext (by match a with | ⟨0, _⟩ => rfl | ⟨1, _⟩ => rfl)

/-- The reference's one product is the linear layer of its operands. -/
theorem product_eq (x : Mat 8192 4096) (w : Mat 4096 4096) :
    Read.val_main_v0 (F := Ideal) x w = Cert.Linear.linear x w := by
  funext i
  rw [Read.val_main_v0_apply]
  simp only [left_index, right_index]
  rfl

end Cert.Linear.Reference

end
-- ==== Proof.lean ====
/-
  A linear layer with the weight stored (out_features, in_features): input x : [8192, 4096], weight w : [4096, 4096],

      out (t, o) = ∑ i < 4096, x (t, i) · w (o, i).

  The kernel narrows both operands to a 16-bit format on the host and then computes the result tile by tile on an
  8 × 8 grid: the tile of rows [1024 a, 1024 a + 1024) and columns [512 b, 512 b + 512) is the product of that band
  of input rows with that band of weight rows, contracting the full 4096 columns of both and accumulated from zero.
  The reference computes the whole result as one product contracting axis 1 of both operands.

  On the extended reals a change of float format is the identity, zero plus a sum is the sum, and a tile's entry
  (p, q) is row 1024 a + p of x against row 512 b + q of w; the 64 tiles cover the result. So both programs end with
  the function above of their arguments, and no property of the inputs is used: the formula is literally the same sum
  on both sides, so the question of infinite terms never arises.

  The three runs (each program terminates without a fault and leaves its arguments as they were) are the generated
  ones; the idealization rewrote nothing, so there is nothing to preserve.
-/
import proofs.«161275_j75849122447474_1_alg».proof.Defs
import proofs.«161275_j75849122447474_1_alg».proof.Proof.Gen.Kernel
import proofs.«161275_j75849122447474_1_alg».proof.Proof.Gen.Kernel.Skeleton
import proofs.«161275_j75849122447474_1_alg».proof.Proof.Gen.Kernel.Launch
import proofs.«161275_j75849122447474_1_alg».proof.Proof.Gen.Kernel.Points
import proofs.«161275_j75849122447474_1_alg».proof.Proof.Gen.Kernel.Frame
import proofs.«161275_j75849122447474_1_alg».proof.Proof.Gen.KernelIdeal
import proofs.«161275_j75849122447474_1_alg».proof.Proof.Gen.KernelIdeal.Skeleton
import proofs.«161275_j75849122447474_1_alg».proof.Proof.Gen.KernelIdeal.Launch
import proofs.«161275_j75849122447474_1_alg».proof.Proof.Gen.KernelIdeal.Points
import proofs.«161275_j75849122447474_1_alg».proof.Proof.Gen.KernelIdeal.Frame
import proofs.«161275_j75849122447474_1_alg».proof.Proof.Gen.ReferenceIdeal
import proofs.«161275_j75849122447474_1_alg».proof.Proof.Gen.Pre_finite_inputs
import proofs.«161275_j75849122447474_1_alg».proof.Proof.Gen.KernelIdeal.Value
import proofs.«161275_j75849122447474_1_alg».proof.Proof.Gen.ReferenceIdeal.Run
import proofs.«161275_j75849122447474_1_alg».proof.Proof.Gen.ReferenceIdeal.Read
import proofs.«161275_j75849122447474_1_alg».proof.Proof.KernelArray
import proofs.«161275_j75849122447474_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem runs_kernel : Cert.frame_Kernel := fun m ρ _ => Cert.Kernel.Gen.frame m ρ

/-- The idealized kernel runs and keeps its arguments. -/
theorem runs_kernel_ideal : Cert.frame_KernelIdeal := fun m ρ _ => Cert.KernelIdeal.Gen.frame m ρ

/-- The reference runs and keeps its arguments: its run, with the result's value dropped. -/
theorem runs_reference : Cert.frame_ReferenceIdeal := fun m ρ _ =>
  (θ_run Cert.ReferenceIdeal.defs _ _).mono (fun _ h c => (h c).2) (Cert.ReferenceIdeal.Value.run (F := Ideal) m ρ)

/-- Both programs end with the linear layer of the arguments: the kernel tile by tile, the reference in one product. -/
theorem same_result : Cert.algebraic_KernelIdeal_ReferenceIdeal := by
  intro m ρ m' ρ' _ hagree
  refine ⟨fun c => Cert.Linear.linear (Cert.Linear.KernelValue.X m c) (Cert.Linear.KernelValue.W m c),
    Cert.Linear.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.Linear.Reference.product_eq _ _

theorem claim : Cert.Claim := ⟨Cert.Kernel.Gen.facts, Cert.KernelIdeal.Gen.facts, Cert.ReferenceIdeal.Gen.facts, Cert.Pre_finite_inputs.Gen.facts,
  runs_kernel, runs_kernel_ideal, runs_reference, trivial, same_result⟩

end Cert.Proof

end
